-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x8192 : Shape := ⟨2, ![16384, 8192]⟩
abbrev S16384 : Shape := ⟨1, ![16384]⟩
abbrev S8192x256 : Shape := ⟨2, ![8192, 256]⟩
abbrev S8192x1 : Shape := ⟨2, ![8192, 1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg5 : FVec F S8192x256 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192x256 .f32 := Host.absf main_arg5
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  main_v23

def fn {F : FTy → Type} [FloatOps F] (main_arg0 : FVec F S16384x256 .f32) (main_arg1 : FVec F S16384x8192 .f32) (main_arg2 : IVec S16384 32) (main_arg3 : FVec F S8192x256 .f32) (main_arg4 : FVec F S8192x1 .f32) (main_arg5 : FVec F S8192x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1 .f32 := Host.absf main_arg4
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg5 main_v13 main_v16
-- ==== Kernel.lean ====
abbrev S16384x256 : Shape := ⟨2, ![16384, 256]⟩
abbrev S16384x8192 : Shape := ⟨2, ![16384, 8192]⟩
abbrev S16384 : Shape := ⟨1, ![16384]⟩
abbrev S8192x256 : Shape := ⟨2, ![8192, 256]⟩
abbrev S8192x1 : Shape := ⟨2, ![8192, 1]⟩
abbrev S1x16384 : Shape := ⟨2, ![1, 16384]⟩
abbrev S16384x512 : Shape := ⟨2, ![16384, 512]⟩
abbrev S1024x1 : Shape := ⟨2, ![1024, 1]⟩
abbrev S1024x256 : Shape := ⟨2, ![1024, 256]⟩
abbrev S1x2048 : Shape := ⟨2, ![1, 2048]⟩
abbrev S2048x512 : Shape := ⟨2, ![2048, 512]⟩
abbrev S1024x2048 : Shape := ⟨2, ![1024, 2048]⟩
abbrev S1024x512 : Shape := ⟨2, ![1024, 512]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384x8192, .f32⟩
  | .hbm, ⟨2, _⟩ => ⟨S16384, .i32⟩
  | .hbm, ⟨3, _⟩ => ⟨S8192x256, .f32⟩
  | .hbm, ⟨4, _⟩ => ⟨S8192x1, .f32⟩
  | .hbm, ⟨5, _⟩ => ⟨S8192x256, .f32⟩
  | .hbm, ⟨6, _⟩ => ⟨S1x16384, .i32⟩
  | .hbm, ⟨7, _⟩ => ⟨S16384x256, .bf16⟩
  | .hbm, ⟨8, _⟩ => ⟨S16384x256, .f32⟩
  | .hbm, ⟨9, _⟩ => ⟨S16384x256, .f32⟩
  | .hbm, ⟨10, _⟩ => ⟨S16384x256, .bf16⟩
  | .hbm, ⟨11, _⟩ => ⟨S16384x512, .bf16⟩
  | .hbm, ⟨12, _⟩ => ⟨S8192x256, .f32⟩
  | .hbm, ⟨13, _⟩ => ⟨S8192x1, .f32⟩
  | .hbm, ⟨14, _⟩ => ⟨S8192x256, .f32⟩
  | .local _ .vmem, ⟨0, _⟩ => ⟨S16384x512, .bf16⟩
  | .local _ .vmem, ⟨1, _⟩ => ⟨S1x16384, .i32⟩
  | .local _ .vmem, ⟨2, _⟩ => ⟨S1024x1, .f32⟩
  | .local _ .vmem, ⟨3, _⟩ => ⟨S1024x1, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1, .f32⟩
  | .local _ .vmem, ⟨9, _⟩ => ⟨S1024x1, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32_4 : BitVec 32 := 0#32
  let c0_i32 : BitVec 32 := 0#32
  let c1_i32 : BitVec 32 := 1#32
  let v12 : BitVec 32 := Scalar.muli c0_i32 c1_i32
  let v13 : BitVec 32 := Scalar.addi c0_i32_4 v12
  let c2048_i32 : BitVec 32 := 2048#32
  let v14 : BitVec 32 := Scalar.muli v13 c2048_i32
  v14
def k0_off1 (c0_i32 : BitVec 32) : Fin 2 → Nat :=
  let c0_5 : Index := 0#32
  let c0_i32_4 : BitVec 32 := 0#32
  let c1_i32 : BitVec 32 := 1#32
  let v12 : BitVec 32 := Scalar.muli c0_i32 c1_i32
  let v13 : BitVec 32 := Scalar.addi c0_i32_4 v12
  let c2048_i32 : BitVec 32 := 2048#32
  let v14 : BitVec 32 := Scalar.muli v13 c2048_i32
  let v15 : BitVec 32 := v14
  let v16 : Index := Scalar.indexCast v15
  ![0, v16.toNat]
def k0_off2 (c0_i32 : BitVec 32) : Fin 2 → Nat :=
  let c0_i32_4 : BitVec 32 := 0#32
  let c1_i32 : BitVec 32 := 1#32
  let v12 : BitVec 32 := Scalar.muli c0_i32 c1_i32
  let v13 : BitVec 32 := Scalar.addi c0_i32_4 v12
  let c2048_i32 : BitVec 32 := 2048#32
  let v14 : BitVec 32 := Scalar.muli v13 c2048_i32
  let v15 : BitVec 32 := v14
  let v19 : Index := Scalar.indexCast v15
  let c0_6 : Index := 0#32
  ![v19.toNat, 0]
def k0_mult2 : BitVec 32 :=
  let c0_i32_19 : BitVec 32 := 0#32
  let c1_i32_17 : BitVec 32 := 1#32
  let c1_i32_18 : BitVec 32 := 1#32
  let v45 : BitVec 32 := Scalar.muli c1_i32_17 c1_i32_18
  let v46 : BitVec 32 := Scalar.addi c0_i32_19 v45
  let c2048_i32_20 : BitVec 32 := 2048#32
  let v47 : BitVec 32 := Scalar.muli v46 c2048_i32_20
  v47
def k0_mult3 : BitVec 32 :=
  let c0_i32_34 : BitVec 32 := 0#32
  let c2_i32 : BitVec 32 := 2#32
  let c1_i32_33 : BitVec 32 := 1#32
  let v78 : BitVec 32 := Scalar.muli c2_i32 c1_i32_33
  let v79 : BitVec 32 := Scalar.addi c0_i32_34 v78
  let c2048_i32_35 : BitVec 32 := 2048#32
  let v80 : BitVec 32 := Scalar.muli v79 c2048_i32_35
  v80
def k0_mult4 : BitVec 32 :=
  let c0_i32_49 : BitVec 32 := 0#32
  let c3_i32 : BitVec 32 := 3#32
  let c1_i32_48 : BitVec 32 := 1#32
  let v111 : BitVec 32 := Scalar.muli c3_i32 c1_i32_48
  let v112 : BitVec 32 := Scalar.addi c0_i32_49 v111
  let c2048_i32_50 : BitVec 32 := 2048#32
  let v113 : BitVec 32 := Scalar.muli v112 c2048_i32_50
  v113
def k0_mult5 : BitVec 32 :=
  let c0_i32_64 : BitVec 32 := 0#32
  let c4_i32 : BitVec 32 := 4#32
  let c1_i32_63 : BitVec 32 := 1#32
  let v144 : BitVec 32 := Scalar.muli c4_i32 c1_i32_63
  let v145 : BitVec 32 := Scalar.addi c0_i32_64 v144
  let c2048_i32_65 : BitVec 32 := 2048#32
  let v146 : BitVec 32 := Scalar.muli v145 c2048_i32_65
  v146
def k0_mult6 : BitVec 32 :=
  let c0_i32_79 : BitVec 32 := 0#32
  let c5_i32 : BitVec 32 := 5#32
  let c1_i32_78 : BitVec 32 := 1#32
  let v177 : BitVec 32 := Scalar.muli c5_i32 c1_i32_78
  let v178 : BitVec 32 := Scalar.addi c0_i32_79 v177
  let c2048_i32_80 : BitVec 32 := 2048#32
  let v179 : BitVec 32 := Scalar.muli v178 c2048_i32_80
  v179
def k0_mult7 : BitVec 32 :=
  let c0_i32_94 : BitVec 32 := 0#32
  let c6_i32 : BitVec 32 := 6#32
  let c1_i32_93 : BitVec 32 := 1#32
  let v210 : BitVec 32 := Scalar.muli c6_i32 c1_i32_93
  let v211 : BitVec 32 := Scalar.addi c0_i32_94 v210
  let c2048_i32_95 : BitVec 32 := 2048#32
  let v212 : BitVec 32 := Scalar.muli v211 c2048_i32_95
  v212
def k0_mult8 : BitVec 32 :=
  let c0_i32_109 : BitVec 32 := 0#32
  let c7_i32 : BitVec 32 := 7#32
  let c1_i32_108 : BitVec 32 := 1#32
  let v243 : BitVec 32 := Scalar.muli c7_i32 c1_i32_108
  let v244 : BitVec 32 := Scalar.addi c0_i32_109 v243
  let c2048_i32_110 : BitVec 32 := 2048#32
  let v245 : BitVec 32 := Scalar.muli v244 c2048_i32_110
  v245
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16384x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16384_S1x16384 : S16384.ShapeCasts S1x16384
  bitsLt_bf16_f32 : FTy.bits .bf16 < FTy.bits .f32
  concatenates_S16384x256_S16384x256_S16384x512_d1 : Shape.Concatenates [S16384x256, S16384x256] S16384x512 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  h_S1x2048 : 0 < S1x2048.numel
  shapeCasts_S1x2048_S1x2048 : S1x2048.ShapeCasts S1x2048
  h_S2048x512 : 0 < S2048x512.numel
  shapeCasts_S2048x512_S2048x512 : S2048x512.ShapeCasts S2048x512
  broadcasts_S1024x1_S1024x2048 : S1024x1.Broadcasts S1024x2048
  broadcasts_S1x2048_S1024x2048 : S1x2048.Broadcasts S1024x2048
  natLt_1_32 : 1 < 32
  slices_S1024x512_o0_0_S1024x256 : S1024x512.Slices ![0, 0] S1024x256
  slices_S1024x512_o0_256_S1024x256 : S1024x512.Slices ![0, 256] S1024x256
  reduces_S1024x2048_S1024 : S1024x2048.Reduces [1] S1024
  shapeCasts_S1024_S1024x1 : S1024.ShapeCasts S1024x1
  broadcasts_S1024x1_S1024x256 : S1024x1.Broadcasts S1024x256
  dot_S1024x2048_S2048x512_S1024x512_1_0_0_1_n_n_wf : DotDims.WF S1024x2048 S2048x512 S1024x512 [1] [0] [0] [1] [] []
  hrank0 : 0 < grid0.rank
  k0_mult1_dvd : 2048 ∣ k0_mult1.toNat
  k0_off1_inb : ∀ (r : Fin 8), ∀ a, (k0_off1 (BitVec.ofNat 32 r.val)) a + S1x2048.size a ≤ S1x16384.size a
  k0_off2_inb : ∀ (r : Fin 8), ∀ a, (k0_off2 (BitVec.ofNat 32 r.val)) a + S2048x512.size a ≤ S16384x512.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x512.size a ≤ S16384x512.size a
  hwx0_0 : ∀ i : grid0.Coords, EltTy.bits .bf16 = 32 ∨ (Rect.block (s := S16384x512) S16384x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .i32 = 32 ∨ (Rect.block (s := S1x16384) S1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v5) S16384x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x8192 : Shape := ⟨2, ![16384, 8192]⟩
abbrev S16384 : Shape := ⟨1, ![16384]⟩
abbrev S8192x256 : Shape := ⟨2, ![8192, 256]⟩
abbrev S8192x1 : Shape := ⟨2, ![8192, 1]⟩
abbrev S_ : Shape := ⟨0, ![]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x8192, .f32⟩
  | .hbm, ⟨2, _⟩ => ⟨S16384, .i32⟩
  | .hbm, ⟨3, _⟩ => ⟨S8192x256, .f32⟩
  | .hbm, ⟨4, _⟩ => ⟨S8192x1, .f32⟩
  | .hbm, ⟨5, _⟩ => ⟨S8192x256, .f32⟩
  | .hbm, ⟨6, _⟩ => ⟨S_, .f32⟩
  | .hbm, ⟨7, _⟩ => ⟨S16384x1, .f32⟩
  | .hbm, ⟨8, _⟩ => ⟨S_, .f32⟩
  | .hbm, ⟨9, _⟩ => ⟨S8192x1, .f32⟩
  | .hbm, ⟨10, _⟩ => ⟨S16384x1, .i32⟩
  | .hbm, ⟨11, _⟩ => ⟨S8192x1, .f32⟩
  | .hbm, ⟨12, _⟩ => ⟨S_, .f32⟩
  | .hbm, ⟨13, _⟩ => ⟨S8192x256, .f32⟩
  | .hbm, ⟨14, _⟩ => ⟨S16384x1, .i32⟩
  | .hbm, ⟨15, _⟩ => ⟨S8192x256, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  bcast_S_S8192x1 : S_.BroadcastsInDim S8192x1 (![] : Fin 0 → Fin S8192x1.rank)
  bcast_S16384_S16384x1_0 : S16384.BroadcastsInDim S16384x1 (![0] : Fin 1 → Fin S16384x1.rank)
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  scatter_S8192x1_S16384x1_S16384x1_1_0_0_1_wf : ScatterDims.WF S8192x1 S16384x1 S16384x1 [1] [0] [0] 1
  scatter_S8192x256_S16384x1_S16384x256_1_0_0_1_wf : ScatterDims.WF S8192x256 S16384x1 S16384x256 [1] [0] [0] 1

variable [Facts₀]

def scatter_S8192x1_S16384x1_S16384x1_1_0_0_1 : ScatterDims S8192x1 S16384x1 S16384x1 where
  updateWindowDims := [1]
  insertedWindowDims := [0]
  scatterDimsToOperandDims := [0]
  indexVectorDim := 1
  wf := scatter_S8192x1_S16384x1_S16384x1_1_0_0_1_wf
def scatter_S8192x256_S16384x1_S16384x256_1_0_0_1 : ScatterDims S8192x256 S16384x1 S16384x256 where
  updateWindowDims := [1]
  insertedWindowDims := [0]
  scatterDimsToOperandDims := [0]
  indexVectorDim := 1
  wf := scatter_S8192x256_S16384x1_S16384x256_1_0_0_1_wf

class Facts : Prop extends Facts₀ where

variable [Facts]
-- ==== Proof.FiniteInputs.lean ====
/-
  FINITE INPUTS: what the precondition says of the batch array.

  The precondition is the conjunction, over the five float arguments, of "every entry's absolute value is below
  +inf". Read at the first argument it says every entry of the batch array is neither +inf nor -inf, that is, a
  real number (arg0_real). This is what lets a value minus itself be zero.
-/
import proofs.«413381_j8409545966131_3_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Idealize.ShloMosaic Cert.Pre_finite_inputs Cert.Pre_finite_inputs.Facts

instance : Subsingleton S_.Idx := ⟨fun a b => funext fun d => d.elim0⟩

/-- The float pattern of +inf. -/
theorem inf_f32 : Ideal.ofBits .f32 0x7F800000#32 = ⊤ := by simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- Under the precondition every entry of the batch array is a real number. -/
theorem arg0_real (a0 : FVec Ideal S16384x256 .f32) (a1 : FVec Ideal S16384x8192 .f32) (a2 : IVec S16384 32)
    (a3 : FVec Ideal S8192x256 .f32) (a4 : FVec Ideal S8192x1 .f32) (a5 : FVec Ideal S8192x256 .f32)
    (h : fn (F := Ideal) a0 a1 a2 a3 a4 a5 = fun _ => 1#1) (i : S16384x256.Idx) : ∃ r : ℝ, a0 i = (r : EReal) := by
  have h0 := congrFun h ValueIdx.ix0
  dsimp only [fn, fn_part1] at h0
  have h1 := (IntOp.andi_eq_one.1 h0).1
  have h2 := (IntOp.andi_eq_one.1 h1).1
  have h3 := (IntOp.andi_eq_one.1 h2).1
  have h4 := (IntOp.andi_eq_one.1 h3).1
  have h5 := Host.reduce_andi_all _ _ _ _ _ h4 i
  have h6 : Ideal.cmp .olt (max (a0 i) (-(a0 i))) (Ideal.ofBits .f32 0x7F800000#32) = 1#1 := by
    rw [← h5]
    show _ = FloatOps.cmpf (F := Ideal) .olt (FloatOps.hostAbsf (a0 i))
      (broadcastInDim S16384x256 ![] bcast_S_S16384x256 (constant (F := Ideal) S_ .f32 0x7F800000#32) i)
    rw [broadcastInDim_apply _ bcast_S_S16384x256 _ i ValueIdx.ix0 (fun a => a.elim0)]
    rfl
  rw [inf_f32] at h6
  refine real_of_abs_lt_top _ ?_
  have h7 : BitVec.ofBool (decide (max (a0 i) (-(a0 i)) < ⊤)) = 1#1 := h6
  by_contra hn
  rw [decide_eq_false hn] at h7
  exact absurd h7 (by decide)

end Cert.Pre_finite_inputs.Finite

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.EmaSums.lean ====
/-
  The arithmetic of the codebook update, apart from any program.

  The batch of 16384 rows is read in eight chunks of 2048 rows; row b of chunk j is row 2048 j + b of the
  batch. A sum over the batch is the sum over the chunks of the sums over their rows (sum_rows), and a sum of
  eight chunk terms accumulated one after the other from zero is their sum (acc8).

  Row n of the batch is assigned to code k when its index word, read signed, is k. The word of a code below 8192
  equals an index word exactly when that word read signed is the code (word_eq_iff), so comparing words is
  comparing the signed readings. A mask entry is 1 on the rows assigned to the code and 0 elsewhere; the sum of
  the mask entries is the number of assigned rows (sum_mask_one) and the sum of mask entry times value is the sum
  of the values over the assigned rows (sum_mask_mul).
-/
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.Ema

open Idealize.ShloMosaic Idealize.ShloMosaic.ValueIdx

/-! ## Chunks of the batch -/

/-- Row b of chunk j is row 2048 j + b of the batch. -/
def row (j : Fin 8) (b : Fin 2048) : Fin 16384 := ⟨2048 * j.val + b.val, by omega⟩

theorem row_val (j : Fin 8) (b : Fin 2048) : (row j b).val = 2048 * j.val + b.val := rfl

/-- Chunk and row inside the chunk number the batch. -/
def rowEquiv : Fin 8 × Fin 2048 ≃ Fin 16384 where
  toFun p := row p.1 p.2
  invFun n := (⟨n.val / 2048, by omega⟩, ⟨n.val % 2048, by omega⟩)
  left_inv p := by
    refine Prod.ext (Fin.ext ?_) (Fin.ext ?_)
    · show (2048 * p.1.val + p.2.val) / 2048 = p.1.val
      omega
    · show (2048 * p.1.val + p.2.val) % 2048 = p.2.val
      omega
  right_inv n := by
    refine Fin.ext ?_
    show 2048 * (n.val / 2048) + n.val % 2048 = n.val
    omega

/-- A sum over the batch is the sum over the chunks of the sums over their rows. -/
theorem sum_rows {M : Type*} [AddCommMonoid M] (f : Fin 16384 → M) :
    ∑ n, f n = ∑ j : Fin 8, ∑ b : Fin 2048, f (row j b) := by
  rw [← Equiv.sum_comp rowEquiv f, Fintype.sum_prod_type]
  rfl

/-- Eight chunk terms accumulated one after the other from zero are their sum. -/
theorem acc8 {M : Type*} [AddCommMonoid M] (A : Fin 8 → M) :
    0 + A 0 + A 1 + A 2 + A 3 + A 4 + A 5 + A 6 + A 7 = ∑ j, A j := by
  rw [zero_add, Fin.sum_univ_eight]

/-! ## Index words and codes -/

/-- The word of a code below 8192 equals an index word exactly when that word, read signed, is the code. -/
theorem word_eq_iff (k : Nat) (hk : k < 8192) (w : BitVec 32) :
    BitVec.ofNat 32 k = w ↔ w.toInt = (k : Int) := by
  have hw := w.isLt
  rw [BitVec.toInt_eq_toNat_cond]
  constructor
  · rintro rfl
    rw [BitVec.toNat_ofNat, Nat.mod_eq_of_lt (by omega)]
    split <;> omega
  · intro h
    apply BitVec.eq_of_toNat_eq
    rw [BitVec.toNat_ofNat, Nat.mod_eq_of_lt (by omega)]
    split at h <;> omega

/-- The rows of the batch assigned to code k: those whose index word, read signed, is k. -/
def assigned (idx : Fin 16384 → BitVec 32) (k : Nat) : Finset (Fin 16384) :=
  Finset.univ.filter fun n => (idx n).toInt = (k : Int)

/-- The mask entry of code k at a row: 1 when the row is assigned to the code, 0 otherwise. -/
def maskAt (idx : Fin 16384 → BitVec 32) (k : Nat) (n : Fin 16384) : EReal :=
  if (idx n).toInt = (k : Int) then 1 else 0

/-- The mask entries of a code sum to the number of rows assigned to it. -/
theorem sum_mask_one (idx : Fin 16384 → BitVec 32) (k : Nat) :
    ∑ n, maskAt idx k n = ∑ _n ∈ assigned idx k, (1 : EReal) := by
  unfold maskAt assigned
  rw [Finset.sum_filter]

/-- Mask entry times value, summed over the batch, is the sum of the values over the assigned rows. -/
theorem sum_mask_mul (idx : Fin 16384 → BitVec 32) (k : Nat) (f : Fin 16384 → EReal) :
    ∑ n, maskAt idx k n * f n = ∑ n ∈ assigned idx k, f n := by
  unfold maskAt assigned
  rw [Finset.sum_filter]
  refine Finset.sum_congr rfl fun n _ => ?_
  split
  · rw [one_mul]
  · rw [zero_mul]

/-- Mask entry times a difference of a real number with itself contributes nothing. -/
theorem sum_mask_mul_sub_self (idx : Fin 16384 → BitVec 32) (k : Nat) (f : Fin 16384 → EReal)
    (hf : ∀ n, ∃ r : ℝ, f n = (r : EReal)) (s : Finset (Fin 16384)) :
    ∑ n ∈ s, maskAt idx k n * (f n - f n) = 0 := by
  refine Finset.sum_eq_zero fun n _ => ?_
  obtain ⟨r, hr⟩ := hf n
  rw [hr, ← EReal.coe_sub, sub_self, EReal.coe_zero, mul_zero]

end Cert.Ema

end
-- ==== Proof.EmaSpec.lean ====
/-
  THE CODEBOOK UPDATE as three functions of the argument arrays, entry by entry, on the extended reals.

  With the rows of the batch assigned to code k (Ema.assigned: the rows whose index word, read signed, is k):
    new count of code k      = 0.99' N[k]    + 0.01' (number of rows assigned to k),
    new sum of code k, col d = 0.99' M[k, d] + 0.01' (sum of x[n, d] over the rows n assigned to k),
    new code k, col d        = new sum / new count,
  where 0.99' and 0.01' are the two float constants both programs carry (the floats nearest 0.99 and 0.01).
-/
import proofs.«413381_j8409545966131_3_alg».proof.Proof.EmaSums

noncomputable section

open scoped BigOperators

namespace Cert.Ema

open Idealize.ShloMosaic Idealize.ShloMosaic.ValueIdx

/-- The float nearest 0.99 and the float nearest 0.01, as the extended reals they denote. -/
abbrev c99 : EReal := Ideal.ofBits .f32 0x3F7D70A4#32
abbrev c01 : EReal := Ideal.ofBits .f32 0x3C23D70A#32

/-- The index words of the batch, row by row. -/
def words (idx : (⟨1, ![16384]⟩ : Shape).Idx → BitVec 32) : Fin 16384 → BitVec 32 := fun n => idx (ix1 n)

/-- The new counts. -/
def newCounts (N : (⟨2, ![8192, 1]⟩ : Shape).Idx → EReal) (idx : (⟨1, ![16384]⟩ : Shape).Idx → BitVec 32) :
    (⟨2, ![8192, 1]⟩ : Shape).Idx → EReal :=
  fun i => c99 * N i + c01 * ∑ _n ∈ assigned (words idx) (i 0).val, (1 : EReal)

/-- The new sums. -/
def newSums (M : (⟨2, ![8192, 256]⟩ : Shape).Idx → EReal) (x : (⟨2, ![16384, 256]⟩ : Shape).Idx → EReal)
    (idx : (⟨1, ![16384]⟩ : Shape).Idx → BitVec 32) : (⟨2, ![8192, 256]⟩ : Shape).Idx → EReal :=
  fun i => c99 * M i + c01 * ∑ n ∈ assigned (words idx) (i 0).val, x (ix2 n (i 1))

/-- The new codes: new sums over new counts. -/
def newCodes (N : (⟨2, ![8192, 1]⟩ : Shape).Idx → EReal) (M : (⟨2, ![8192, 256]⟩ : Shape).Idx → EReal)
    (x : (⟨2, ![16384, 256]⟩ : Shape).Idx → EReal) (idx : (⟨1, ![16384]⟩ : Shape).Idx → BitVec 32) :
    (⟨2, ![8192, 256]⟩ : Shape).Idx → EReal :=
  fun i => Ideal.div (newSums M x idx i) (newCounts N idx (ix2 (i 0) (0 : Fin 1)))

end Cert.Ema

end
-- ==== Proof.RefValue.lean ====
/-
  THE REFERENCE computes the codebook update of Ema.newCounts, Ema.newSums and Ema.newCodes.

  Its two accumulating scatters carry one start index per batch row: the scatter of ones into a zero column is, at
  code k, the number of rows whose index word read signed is k, and the scatter of the batch rows into a zero array
  is, at (k, d), the sum of x[n, d] over those rows (the scatter read at an index: ScatterSum.scatterAdd_rows_apply).
  The rest of the reference is pointwise: the two constants times the old and the scattered arrays, added, and the
  quotient of the sums by the counts broadcast along the columns.
-/
import proofs.«413381_j8409545966131_3_alg».proof.Proof.Gen.ReferenceIdeal.Read
import proofs.«413381_j8409545966131_3_alg».proof.Proof.LibScatterSum
import proofs.«413381_j8409545966131_3_alg».proof.Proof.EmaSpec
import Idealize.ShloMosaic.PureOps.IdealRules
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Ema

/-- The scatter indices' row n is row n of the index argument. -/
theorem idx_v2 (n : Fin 16384) : idx_main_v2 (ix2 n (0 : Fin 1)) = ix1 n :=
  funext fun a => by match a with | ⟨0, _⟩ => rfl
theorem idx_v5 (n : Fin 16384) : idx_main_v5 (ix2 n (0 : Fin 1)) = ix1 n :=
  funext fun a => by match a with | ⟨0, _⟩ => rfl

/-- The float one. -/
theorem one_f32 : Ideal.ofBits .f32 0x3F800000#32 = 1 := IdealRules.sign_bit.ideal_onePat .f32

/-- The scatter of ones, at code k: the number of rows assigned to k. -/
theorem v3_apply (x2 : IVec S16384 32) (k : Fin 8192) :
    val_main_v3 (F := Ideal) x2 (ix2 k (0 : Fin 1)) = ∑ _n ∈ assigned (words x2) k.val, (1 : EReal) := by
  unfold val_main_v3
  show Ideal.hostScatterAdd scatter_S8192x1_S16384x1_S16384x1_1_0_0_1 (val_main_v1 (F := Ideal)) (val_main_v2 (F := Ideal) x2)
    (val_main_v0 (F := Ideal)) (ix2 k (0 : Fin 1)) = _
  rw [ScatterSum.scatterAdd_rows_apply _ rfl rfl rfl rfl, val_main_v1_apply, val_main_cst_0_apply, Ideal.ofBits_def,
    Ideal.ofBits_zero_f32, zero_add]
  unfold assigned
  refine Finset.sum_congr (Finset.filter_congr fun n _ => ?_) fun n _ => ?_
  · rw [val_main_v2_apply, idx_v2]; rfl
  · rw [val_main_v0_apply, val_main_cst_apply, Ideal.ofBits_def, one_f32]

/-- The scatter of the batch rows, at (k, d): the sum of column d over the rows assigned to k. -/
theorem v6_apply (x0 : FVec Ideal S16384x256 .f32) (x2 : IVec S16384 32) (k : Fin 8192) (d : Fin 256) :
    val_main_v6 (F := Ideal) x0 x2 (ix2 k d) = ∑ n ∈ assigned (words x2) k.val, x0 (ix2 n d) := by
  unfold val_main_v6
  show Ideal.hostScatterAdd scatter_S8192x256_S16384x1_S16384x256_1_0_0_1 (val_main_v4 (F := Ideal)) (val_main_v5 (F := Ideal) x2)
    x0 (ix2 k d) = _
  rw [ScatterSum.scatterAdd_rows_apply _ rfl rfl rfl rfl, val_main_v4_apply, val_main_cst_1_apply, Ideal.ofBits_def,
    Ideal.ofBits_zero_f32, zero_add]
  unfold assigned
  refine Finset.sum_congr (Finset.filter_congr fun n _ => ?_) fun n _ => rfl
  rw [val_main_v5_apply, idx_v5]; rfl

/-- The reference's second result is the new counts. -/
theorem v11_eq (x2 : IVec S16384 32) (x4 : FVec Ideal S8192x1 .f32) :
    val_main_v11 (F := Ideal) x2 x4 = newCounts x4 x2 := by
  funext i
  obtain ⟨k, z, rfl⟩ : ∃ (k : Fin 8192) (z : Fin 1), i = ix2 k z := ⟨i 0, i 1, eq_ix2 i⟩
  obtain rfl : z = 0 := Subsingleton.elim _ _
  rw [val_main_v11_apply, val_main_v8_apply, val_main_v10_apply, val_main_v7_apply, val_main_v9_apply,
    val_main_cst_2_apply, val_main_cst_3_apply, v3_apply]
  rfl

/-- The reference's third result is the new sums. -/
theorem v16_eq (x0 : FVec Ideal S16384x256 .f32) (x2 : IVec S16384 32) (x5 : FVec Ideal S8192x256 .f32) :
    val_main_v16 (F := Ideal) x0 x2 x5 = newSums x5 x0 x2 := by
  funext i
  obtain ⟨k, d, rfl⟩ : ∃ (k : Fin 8192) (d : Fin 256), i = ix2 k d := ⟨i 0, i 1, eq_ix2 i⟩
  rw [val_main_v16_apply, val_main_v13_apply, val_main_v15_apply, val_main_v12_apply, val_main_v14_apply,
    val_main_cst_4_apply, val_main_cst_5_apply, v6_apply]
  rfl

/-- The counts broadcast along the columns read, at (k, d), the count of code k. -/
theorem idx_v17 (k : Fin 8192) (d : Fin 256) : idx_main_v17 (ix2 k d) = ix2 k (0 : Fin 1) :=
  funext fun a => by match a with
    | ⟨0, _⟩ => rfl
    | ⟨1, _⟩ => rfl

/-- The reference's first result is the new codes. -/
theorem v18_eq (x0 : FVec Ideal S16384x256 .f32) (x2 : IVec S16384 32) (x4 : FVec Ideal S8192x1 .f32)
    (x5 : FVec Ideal S8192x256 .f32) :
    val_main_v18 (F := Ideal) x0 x2 x4 x5 = newCodes x4 x5 x0 x2 := by
  funext i
  obtain ⟨k, d, rfl⟩ : ∃ (k : Fin 8192) (d : Fin 256), i = ix2 k d := ⟨i 0, i 1, eq_ix2 i⟩
  rw [val_main_v18_apply, val_main_v17_apply, idx_v17, v16_eq, v11_eq]
  rfl

end Cert.ReferenceIdeal.RefValue

end
-- ==== Proof.KernelChunk.lean ====
/-
  ONE CHUNK OF THE BATCH inside the kernel body, as two functions of the running sums.

  The body reads the batch in eight chunks of 2048 rows. For a chunk it builds the mask (entry (r, b) is 1 when
  row id r of the code tile equals index word b of the chunk, else 0), multiplies the mask into the chunk's
  2048 x 512 block [value | residual] on the matrix unit, adds the two 256-column halves of the product to the
  running sums (addSums), and adds the mask's row sums to the running counts (addCounts). The body's stored values
  are these two functions, chunk after chunk (the *_eq lemmas: each stored value is addSums or addCounts of the
  value stored before it).

  At the extended reals the two functions read, at an entry, as the running value plus plain sums over the
  chunk's rows (addSums_apply, addCounts_apply): the mask entry is maskVal of the two words, the matrix product
  is the sum over the chunk's rows of mask entry times block entry, the row sum is the sum of the mask entries.
-/
import proofs.«413381_j8409545966131_3_alg».proof.Proof.Gen.KernelIdeal.Skeleton
import proofs.«413381_j8409545966131_3_alg».proof.Proof.EmaSums
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Chunk

open Cert.KernelIdeal Cert.KernelIdeal.Gen Idealize.ShloMosaic Idealize.ShloMosaic.ValueIdx

variable {F : FTy → Type} [FloatOps F]

/-! ## The two functions, at any instance -/

/-- The mask of one chunk: entry (r, b) is 1 when row id r equals index word b, else 0, as a float. -/
def mask (ids : IVec S1024x1 32) (iw : IVec S1x2048 32) : FVec F S1024x2048 .f32 :=
  sitofp .f32 (extui 32 (cmpi .eq (broadcastTo S1024x2048 ids broadcasts_S1024x1_S1024x2048)
    (broadcastTo S1024x2048 iw broadcasts_S1x2048_S1024x2048)) natLt_1_32)

/-- The mask times the chunk's block, into a zero accumulator. -/
def prod (ids : IVec S1024x1 32) (iw : IVec S1x2048 32) (cb : FVec F S2048x512 .bf16) : FVec F S1024x512 .f32 :=
  matmul dot_S1024x2048_S2048x512_S1024x512_1_0_0_1_n_n none (truncf .bf16 (mask (F := F) ids iw) bitsLt_bf16_f32) cb
    (constant S1024x512 .f32 0x00000000#32)

/-- One chunk added to the running sums: the two halves of the product added, then added to the running value. -/
def addSums (ids : IVec S1024x1 32) (iw : IVec S1x2048 32) (cb : FVec F S2048x512 .bf16) (acc : FVec F S1024x256 .f32) :
    FVec F S1024x256 .f32 :=
  addf acc (addf (extractStridedSlice S1024x256 ![0, 0] (prod ids iw cb) slices_S1024x512_o0_0_S1024x256)
    (extractStridedSlice S1024x256 ![0, 256] (prod ids iw cb) slices_S1024x512_o0_256_S1024x256))

/-- One chunk added to the running counts: the mask's row sums added to the running value. -/
def addCounts (ids : IVec S1024x1 32) (iw : IVec S1x2048 32) (acc : FVec F S1024x1 .f32) : FVec F S1024x1 .f32 :=
  addf acc (shapeCast S1024x1 (multiReduction .add [1] S1024 (mask (F := F) ids iw) 0x00000000#32 reduces_S1024x2048_S1024 (.inl rfl) rfl)
    shapeCasts_S1024_S1024x1)

/-! ## The body's stored values are these functions -/

theorem pay21_eq (v : Vec F S1x2048 .i32) : k0_pay21 v = v := by
  unfold k0_pay21; exact shapeCast_self _ _

theorem pay25_eq (v : Vec F S2048x512 .bf16) : k0_pay25 v = v := by
  unfold k0_pay25; exact shapeCast_self _ _

theorem pay9_eq (i : grid0.Coords) (iw : Vec F S1x2048 .i32) (cb : Vec F S2048x512 .bf16) (acc : Vec F S1024x256 .f32) :
    k0_pay9 i iw cb acc = addSums (k0_pay7 i) iw cb acc := by
  unfold k0_pay9 k0_pay8 addSums prod mask
  simp only [shapeCast_self]

theorem pay12_eq (ids : IVec S1024x1 32) (iw : Vec F S1x2048 .i32) (cb : Vec F S2048x512 .bf16) (acc : Vec F S1024x256 .f32) :
    k0_pay12 ids iw cb acc = addSums ids iw cb acc := by
  unfold k0_pay12 k0_pay11 addSums prod mask
  simp only [shapeCast_self]

theorem pay16_eq (ids : IVec S1024x1 32) (iw : Vec F S1x2048 .i32) (cb : Vec F S2048x512 .bf16) (acc : Vec F S1024x256 .f32) :
    k0_pay16 ids iw cb acc = addSums ids iw cb acc := by
  unfold k0_pay16 k0_pay15 addSums prod mask
  simp only [shapeCast_self]

theorem pay19_eq (ids : IVec S1024x1 32) (iw : Vec F S1x2048 .i32) (cb : Vec F S2048x512 .bf16) (acc : Vec F S1024x256 .f32) :
    k0_pay19 ids iw cb acc = addSums ids iw cb acc := by
  unfold k0_pay19 k0_pay18 addSums prod mask
  simp only [shapeCast_self]

theorem pay23_eq (ids : IVec S1024x1 32) (iw : IVec S1x2048 32) (cb : Vec F S2048x512 .bf16) (acc : Vec F S1024x256 .f32) :
    k0_pay23 ids iw cb acc = addSums ids iw cb acc := by
  unfold k0_pay23 k0_pay22 addSums prod mask
  simp only [shapeCast_self]

theorem pay28_eq (ids : IVec S1024x1 32) (iw : Vec F S1x2048 .i32) (cb : FVec F S2048x512 .bf16) (acc : Vec F S1024x256 .f32) :
    k0_pay28 cb (k0_pay27 ids iw) (constant S1024x512 .f32 0x00000000#32) acc = addSums ids iw cb acc := by
  unfold k0_pay28 k0_pay27 k0_pay26 addSums prod mask
  simp only [shapeCast_self]

theorem pay32_eq (ids : IVec S1024x1 32) (iw : Vec F S1x2048 .i32) (cb : Vec F S2048x512 .bf16) (acc : Vec F S1024x256 .f32) :
    k0_pay32 (k0_pay31 ids iw cb acc) = addSums ids iw cb acc := by
  unfold k0_pay32 k0_pay31 k0_pay30 addSums prod mask
  simp only [shapeCast_self]

theorem pay35_eq (ids : IVec S1024x1 32) (iw : Vec F S1x2048 .i32) (cb : Vec F S2048x512 .bf16) (acc : Vec F S1024x256 .f32) :
    k0_pay35 ids iw cb acc = addSums ids iw cb acc := by
  unfold k0_pay35 k0_pay34 addSums prod mask
  simp only [shapeCast_self]

theorem pay10_eq (i : grid0.Coords) (iw : Vec F S1x2048 .i32) (acc : Vec F S1024x1 .f32) :
    k0_pay10 (k0_pay8 i iw) acc = addCounts (k0_pay7 i) iw acc := by
  unfold k0_pay10 k0_pay8 addCounts mask
  simp only [shapeCast_self]

theorem pay14_eq (ids : IVec S1024x1 32) (iw : Vec F S1x2048 .i32) (acc : Vec F S1024x1 .f32) :
    k0_pay14 (k0_pay13 ids iw acc) = addCounts ids iw acc := by
  unfold k0_pay14 k0_pay13 k0_pay11 addCounts mask
  simp only [shapeCast_self]

theorem pay17_eq (ids : IVec S1024x1 32) (iw : Vec F S1x2048 .i32) (acc : Vec F S1024x1 .f32) :
    k0_pay17 ids iw acc = addCounts ids iw acc := by
  unfold k0_pay17 k0_pay15 addCounts mask
  simp only [shapeCast_self]

theorem pay20_eq (ids : IVec S1024x1 32) (iw : Vec F S1x2048 .i32) (acc : Vec F S1024x1 .f32) :
    k0_pay20 ids iw acc = addCounts ids iw acc := by
  unfold k0_pay20 k0_pay18 addCounts mask
  simp only [shapeCast_self]

theorem pay24_eq (ids : IVec S1024x1 32) (iw : IVec S1x2048 32) (acc : Vec F S1024x1 .f32) :
    k0_pay24 ids iw acc = addCounts ids iw acc := by
  unfold k0_pay24 k0_pay22 addCounts mask
  simp only [shapeCast_self]

theorem pay29_eq (ids : IVec S1024x1 32) (iw : Vec F S1x2048 .i32) (acc : Vec F S1024x1 .f32) :
    k0_pay29 (k0_pay26 ids iw) acc = addCounts ids iw acc := by
  unfold k0_pay29 k0_pay26 addCounts mask
  simp only [shapeCast_self]

theorem pay33_eq (ids : IVec S1024x1 32) (iw : Vec F S1x2048 .i32) (acc : Vec F S1024x1 .f32) :
    k0_pay33 (k0_pay30 ids iw) acc = addCounts ids iw acc := by
  unfold k0_pay33 k0_pay30 addCounts mask
  simp only [shapeCast_self]

theorem pay1_eq (ids : IVec S1024x1 32) (iw : Vec F S1x2048 .i32) (acc : Vec F S1024x1 .f32) :
    k0_pay1 acc (k0_pay36 ids iw) = addCounts ids iw acc := by
  unfold k0_pay1 k0_pay36 k0_pay34 addCounts mask
  simp only [shapeCast_self]

/-! ## The two functions at the extended reals, read at an entry -/

/-- The mask entry of two words as an extended real: 1 when they are equal, 0 otherwise. -/
def maskVal (x y : BitVec 32) : EReal := if x = y then 1 else 0

/-- The float made of the one-bit comparison of two words, widened, is maskVal. -/
theorem sitofp_cmp (x y : BitVec 32) :
    FloatOps.sitofp (F := Ideal) .f32 ((IntOp.cmpi .eq x y).setWidth 32) = maskVal x y := by
  show ((((BitVec.ofBool (x == y)).setWidth 32).toInt : ℝ) : EReal) = maskVal x y
  unfold maskVal
  by_cases h : x = y
  · rw [if_pos h, beq_iff_eq.mpr h]
    have : ((BitVec.ofBool true).setWidth 32).toInt = 1 := by decide
    rw [this]; norm_num
  · rw [if_neg h, beq_eq_false_iff_ne.mpr h]
    have : ((BitVec.ofBool false).setWidth 32).toInt = 0 := by decide
    rw [this]; norm_num

/-- The mask at (r, b): maskVal of row id r and index word b. -/
theorem mask_apply (ids : IVec S1024x1 32) (iw : IVec S1x2048 32) (r : Fin 1024) (b : Fin 2048) :
    mask (F := Ideal) ids iw (ix2 r b) = maskVal (ids (ix2 r (0 : Fin 1))) (iw (ix2 (0 : Fin 1) b)) := by
  unfold mask
  rw [sitofp_apply, extui_apply]
  show FloatOps.sitofp (F := Ideal) .f32 ((IntOp.cmpi .eq (broadcastTo S1024x2048 ids broadcasts_S1024x1_S1024x2048 (ix2 r b))
    (broadcastTo S1024x2048 iw broadcasts_S1x2048_S1024x2048 (ix2 r b))).setWidth 32) = _
  rw [broadcastTo_1b_ab_apply iw broadcasts_S1x2048_S1024x2048 r b,
    broadcastTo_apply ids broadcasts_S1024x1_S1024x2048 (ix2 r b) (ix2 r (0 : Fin 1)) (fun a => by
      match a with
      | ⟨0, _⟩ => rfl
      | ⟨1, _⟩ => rfl)]
  exact sitofp_cmp _ _

/-- The product's dimension numbers: mask columns against block rows. -/
abbrev D₀ : DotDims S1024x2048 S2048x512 S1024x512 := dot_S1024x2048_S2048x512_S1024x512_1_0_0_1_n_n

/-- The coordinates the product reads its two operands at: (row, contracted) and (contracted, column). -/
theorem lhs_0 (i : S1024x512.Idx) (q : D₀.contr.Idx) : (D₀.lhsIdx i q 0).val = (i 0).val := by
  unfold DotDims.lhsIdx
  rw [dif_neg (show ¬(0 : Fin S1024x2048.rank) ∈ D₀.lhsBatch by decide),
    dif_pos (show (0 : Fin S1024x2048.rank) ∈ D₀.lhsNonContracting by decide)]
  rfl
theorem lhs_1 (i : S1024x512.Idx) (q : D₀.contr.Idx) : (D₀.lhsIdx i q 1).val = (q ⟨0, by decide⟩).val :=
  D₀.lhsIdx_val_of_single rfl i q
theorem rhs_0 (i : S1024x512.Idx) (q : D₀.contr.Idx) : (D₀.rhsIdx i q 0).val = (q ⟨0, by decide⟩).val :=
  D₀.rhsIdx_val_of_single rfl i q
theorem rhs_1 (i : S1024x512.Idx) (q : D₀.contr.Idx) : (D₀.rhsIdx i q 1).val = (i 1).val := by
  unfold DotDims.rhsIdx
  rw [dif_neg (show ¬(1 : Fin S2048x512.rank) ∈ D₀.rhsBatch by decide),
    dif_pos (show (1 : Fin S2048x512.rank) ∈ D₀.rhsNonContracting by decide)]
  rfl

/-- The product at (r, e): the sum over the chunk's rows of mask entry times block entry. -/
theorem prod_apply (ids : IVec S1024x1 32) (iw : IVec S1x2048 32) (cb : FVec Ideal S2048x512 .bf16) (r : Fin 1024) (e : Fin 512) :
    prod (F := Ideal) ids iw cb (ix2 r e)
      = ∑ b : Fin 2048, maskVal (ids (ix2 r (0 : Fin 1))) (iw (ix2 (0 : Fin 1) b)) * cb (ix2 b e) := by
  unfold prod
  simp only [matmul]
  rw [Ideal.matmul_constant_zero_apply, ← Equiv.sum_comp (contrEquiv1 D₀ 2048 rfl rfl).symm]
  refine Finset.sum_congr rfl fun k _ => ?_
  have hk := contrEquiv1_symm_val D₀ 2048 rfl rfl k
  have el : D₀.lhsIdx (ix2 r e) ((contrEquiv1 D₀ 2048 rfl rfl).symm k) = ix2 r k := funext fun a => Fin.ext (by
    match a with
    | ⟨0, _⟩ => exact lhs_0 _ _
    | ⟨1, _⟩ => exact (lhs_1 _ _).trans hk)
  have er : D₀.rhsIdx (ix2 r e) ((contrEquiv1 D₀ 2048 rfl rfl).symm k) = ix2 k e := funext fun a => Fin.ext (by
    match a with
    | ⟨0, _⟩ => exact (rhs_0 _ _).trans hk
    | ⟨1, _⟩ => exact rhs_1 _ _)
  rw [el, er, truncf_apply, mask_apply]

/-- Column d of the value half and column d of the residual half of a 512-column block. -/
def lo (d : Fin 256) : Fin 512 := ⟨d.val, by omega⟩
def hi (d : Fin 256) : Fin 512 := ⟨256 + d.val, by omega⟩

/-- addSums at (r, d): the running value plus the two sums over the chunk's rows, one per half of the block. -/
theorem addSums_apply (ids : IVec S1024x1 32) (iw : IVec S1x2048 32) (cb : FVec Ideal S2048x512 .bf16)
    (acc : FVec Ideal S1024x256 .f32) (r : Fin 1024) (d : Fin 256) :
    addSums (F := Ideal) ids iw cb acc (ix2 r d)
      = acc (ix2 r d)
        + (∑ b : Fin 2048, maskVal (ids (ix2 r (0 : Fin 1))) (iw (ix2 (0 : Fin 1) b)) * cb (ix2 b (lo d))
          + ∑ b : Fin 2048, maskVal (ids (ix2 r (0 : Fin 1))) (iw (ix2 (0 : Fin 1) b)) * cb (ix2 b (hi d))) := by
  unfold addSums
  rw [addf_apply, addf_apply,
    slice2_axis1_apply 0 (prod (F := Ideal) ids iw cb) slices_S1024x512_o0_0_S1024x256 r d (lo d) (by show d.val = 0 + d.val; omega),
    slice2_axis1_apply 256 (prod (F := Ideal) ids iw cb) slices_S1024x512_o0_256_S1024x256 r d (hi d) rfl,
    prod_apply, prod_apply]

/-- addCounts at (r, 0): the running value plus the sum of the mask entries over the chunk's rows. -/
theorem addCounts_apply (ids : IVec S1024x1 32) (iw : IVec S1x2048 32) (acc : FVec Ideal S1024x1 .f32) (r : Fin 1024) :
    addCounts (F := Ideal) ids iw acc (ix2 r (0 : Fin 1))
      = acc (ix2 r (0 : Fin 1)) + ∑ b : Fin 2048, maskVal (ids (ix2 r (0 : Fin 1))) (iw (ix2 (0 : Fin 1) b)) := by
  unfold addCounts
  rw [addf_apply, shapeCast_apply _ shapeCasts_S1024_S1024x1 (ix2 r (0 : Fin 1)) (ix1 r) (by
    rw [Shape.rowMajor_val_one, Shape.rowMajor_val_two]
    show r.val = r.val * 1 + 0
    omega)]
  refine congrArg (acc (ix2 r (0 : Fin 1)) + ·) ?_
  refine (Ideal.multiReduction_add_single (mask (F := Ideal) ids iw) 0x00000000#32 reduces_S1024x2048_S1024 (.inl rfl) rfl (ix1 r)).trans ?_
  show ∑ b : Fin 2048, mask (F := Ideal) ids iw (reduces_S1024x2048_S1024.lift (ix1 r) b) = _
  refine Finset.sum_congr rfl fun b _ => ?_
  have e : reduces_S1024x2048_S1024.lift (ix1 r) b = ix2 r b := funext fun a => Fin.ext (by
    match a with
    | ⟨0, _⟩ => rfl
    | ⟨1, _⟩ => rfl)
  rw [e, mask_apply]

end Cert.KernelIdeal.Chunk

end
-- ==== Proof.KernelPieces.lean ====
/-
  WHAT THE BODY LEAVES IN ITS THREE OUTPUT BLOCKS at a grid point, as functions of the four input blocks: the
  whole [value | residual] array x0, the whole index row x1, the point's block x2 of the counts and x3 of the sums.

  The body zeroes its two accumulators, then for each of the eight chunks of the batch adds the chunk's
  contribution (Chunk.addSums, Chunk.addCounts) to them, reading back what it stored the chunk before; sums8 and
  counts8 are the accumulators after the eighth chunk. The three stores at the end write
  0.99 x3 + 0.01 sums8 (the new sums), 0.99 x2 + 0.01 counts8 (the new counts) and their quotient.
-/
import proofs.«413381_j8409545966131_3_alg».proof.Proof.Gen.KernelIdeal.Frame
import proofs.«413381_j8409545966131_3_alg».proof.Proof.KernelChunk

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Chunk

variable {F : FTy → Type} [FloatOps F]

theorem hz00 : (![0, 0] : Fin 2 → Nat) = fun _ => 0 := funext fun a => by fin_cases a <;> rfl

/-- The index words of chunk j: columns 2048 j to 2048 j + 2047 of the index row. -/
def iwAt (x1 : Vec F S1x16384 .i32) (j : Fin 8) : Vec F S1x2048 .i32 :=
  View.ld x1 (Rect.unit (s := S1x16384) ![0, 2048 * j.val] ![1, 2048]
    (Rect.inb₂ (by show 0 + 1 ≤ 1; omega) (by show 2048 * j.val + 2048 ≤ 16384; omega)))

/-- The [value | residual] rows of chunk j: rows 2048 j to 2048 j + 2047 of the whole array. -/
def cbAt (x0 : Vec F S16384x512 .bf16) (j : Fin 8) : Vec F S2048x512 .bf16 :=
  View.ld x0 (Rect.unit (s := S16384x512) ![2048 * j.val, 0] ![2048, 512]
    (Rect.inb₂ (by show 2048 * j.val + 2048 ≤ 16384; omega) (by show 0 + 512 ≤ 512; omega)))

/-- The running sums after the eighth chunk, from zero. -/
def sums8 (i : grid0.Coords) (x0 : Vec F S16384x512 .bf16) (x1 : Vec F S1x16384 .i32) : FVec F S1024x256 .f32 :=
  (addSums (k0_pay7 i) (iwAt x1 7) (cbAt x0 7) (addSums (k0_pay7 i) (iwAt x1 6) (cbAt x0 6) (addSums (k0_pay7 i) (iwAt x1 5) (cbAt x0 5) (addSums (k0_pay7 i) (iwAt x1 4) (cbAt x0 4) (addSums (k0_pay7 i) (iwAt x1 3) (cbAt x0 3) (addSums (k0_pay7 i) (iwAt x1 2) (cbAt x0 2) (addSums (k0_pay7 i) (iwAt x1 1) (cbAt x0 1) (addSums (k0_pay7 i) (iwAt x1 0) (cbAt x0 0) k0_pay5))))))))

/-- The running counts after the eighth chunk, from zero. -/
def counts8 (i : grid0.Coords) (x1 : Vec F S1x16384 .i32) : FVec F S1024x1 .f32 :=
  (addCounts (k0_pay7 i) (iwAt x1 7) (addCounts (k0_pay7 i) (iwAt x1 6) (addCounts (k0_pay7 i) (iwAt x1 5) (addCounts (k0_pay7 i) (iwAt x1 4) (addCounts (k0_pay7 i) (iwAt x1 3) (addCounts (k0_pay7 i) (iwAt x1 2) (addCounts (k0_pay7 i) (iwAt x1 1) (addCounts (k0_pay7 i) (iwAt x1 0) k0_pay6))))))))

theorem out6_eq (c : Dev nD) (i : grid0.Coords) (arg1 : Memref sig .tc .vmem S16384x512 .bf16) (harg1 : arg1.IsWhole) (arg2 : Memref sig .tc .vmem S1x16384 .i32) (harg2 : arg2.IsWhole) (arg3 : Memref sig .tc .vmem S1024x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x1 .f32) (harg9 : arg9.IsWhole)
    (x0 : Vec F S16384x512 .bf16) (x1 : Vec F S1x16384 .i32) (x2 : Vec F S1024x1 .f32) (x3 : Vec F S1024x256 .f32) :
    out0_A_6 c i arg1 harg1 arg2 harg2 arg3 harg3 arg4 harg4 arg5 harg5 arg6 harg6 arg7 harg7 arg8 harg8 arg9 harg9 x0 x1 x2 x3 = k0_pay3 x3 (sums8 i x0 x1) := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz00]
  simp only [View.readAt_eq_ld, harg1.read_unread, harg2.read_unread, harg3.read_unread, harg4.read_unread, View.ld_unit_zero (S := S1024x256) hz00, View.ld_unit_zero (S := S1024x1) hz00, View.readCov_cons_toLoadRect]
  simp only [pay21_eq, pay25_eq, pay9_eq, pay12_eq, pay16_eq, pay19_eq, pay23_eq, pay28_eq, pay32_eq, pay35_eq, pay10_eq, pay14_eq, pay17_eq, pay20_eq, pay24_eq, pay29_eq, pay33_eq, pay1_eq]
  rfl

theorem out5_eq (c : Dev nD) (i : grid0.Coords) (arg1 : Memref sig .tc .vmem S16384x512 .bf16) (harg1 : arg1.IsWhole) (arg2 : Memref sig .tc .vmem S1x16384 .i32) (harg2 : arg2.IsWhole) (arg3 : Memref sig .tc .vmem S1024x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x1 .f32) (harg9 : arg9.IsWhole)
    (x0 : Vec F S16384x512 .bf16) (x1 : Vec F S1x16384 .i32) (x2 : Vec F S1024x1 .f32) (x3 : Vec F S1024x256 .f32) :
    out0_A_5 c i arg1 harg1 arg2 harg2 arg3 harg3 arg4 harg4 arg5 harg5 arg6 harg6 arg7 harg7 arg8 harg8 arg9 harg9 x0 x1 x2 x3 = k0_pay2 x2 (counts8 i x1) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz00]
  simp only [View.readAt_eq_ld, harg1.read_unread, harg2.read_unread, harg3.read_unread, harg4.read_unread, View.ld_unit_zero (S := S1024x256) hz00, View.ld_unit_zero (S := S1024x1) hz00, View.readCov_cons_toLoadRect]
  simp only [pay21_eq, pay25_eq, pay9_eq, pay12_eq, pay16_eq, pay19_eq, pay23_eq, pay28_eq, pay32_eq, pay35_eq, pay10_eq, pay14_eq, pay17_eq, pay20_eq, pay24_eq, pay29_eq, pay33_eq, pay1_eq]
  rfl

theorem out4_eq (c : Dev nD) (i : grid0.Coords) (arg1 : Memref sig .tc .vmem S16384x512 .bf16) (harg1 : arg1.IsWhole) (arg2 : Memref sig .tc .vmem S1x16384 .i32) (harg2 : arg2.IsWhole) (arg3 : Memref sig .tc .vmem S1024x1 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x1 .f32) (harg9 : arg9.IsWhole)
    (x0 : Vec F S16384x512 .bf16) (x1 : Vec F S1x16384 .i32) (x2 : Vec F S1024x1 .f32) (x3 : Vec F S1024x256 .f32) :
    out0_A_4 c i arg1 harg1 arg2 harg2 arg3 harg3 arg4 harg4 arg5 harg5 arg6 harg6 arg7 harg7 arg8 harg8 arg9 harg9 x0 x1 x2 x3 = k0_pay4 x2 (counts8 i x1) x3 (sums8 i x0 x1) := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz00]
  simp only [View.readAt_eq_ld, harg1.read_unread, harg2.read_unread, harg3.read_unread, harg4.read_unread, View.ld_unit_zero (S := S1024x256) hz00, View.ld_unit_zero (S := S1024x1) hz00, View.readCov_cons_toLoadRect]
  simp only [pay21_eq, pay25_eq, pay9_eq, pay12_eq, pay16_eq, pay19_eq, pay23_eq, pay28_eq, pay32_eq, pay35_eq, pay10_eq, pay14_eq, pay17_eq, pay20_eq, pay24_eq, pay29_eq, pay33_eq, pay1_eq]
  rfl

end Cert.KernelIdeal.Gen

end
-- ==== Proof.KernelBlock.lean ====
/-
  THE THREE OUTPUT BLOCKS OF A GRID POINT, entry by entry, on the extended reals.

  At grid point t the body's row id r stands for code 1024 t + r. Chunk after chunk the running sums gather, for
  each half of the [value | residual] array, the sum over the batch rows of mask entry times array entry, and the
  running counts gather the sum of the mask entries; after the eighth chunk these are sums over the whole batch
  (Ema.sum_rows, Ema.acc8). The mask entry compares the code's word with the row's index word, which is comparing
  the signed reading of the index word with the code (Ema.word_eq_iff): the mask is Ema.maskAt.
-/
import proofs.«413381_j8409545966131_3_alg».proof.Proof.KernelPieces
import proofs.«413381_j8409545966131_3_alg».proof.Proof.EmaSpec

noncomputable section

open scoped BigOperators

namespace Cert.KernelIdeal.Block

open Cert.KernelIdeal Cert.KernelIdeal.Gen Cert.KernelIdeal.Chunk Idealize.ShloMosaic Idealize.ShloMosaic.ValueIdx
open Cert.Ema

/-- The index words of the batch as the body finds them: the one row of the staged index block. -/
def rowWords (x1 : Vec Ideal S1x16384 .i32) : Fin 16384 → BitVec 32 := fun n => x1 (ix2 (0 : Fin 1) n)

/-- The code that row id r stands for at a grid point. -/
def code (i : grid0.Coords) (r : Fin 1024) : Nat := 1024 * (i 0).val + r.val

theorem code_lt (i : grid0.Coords) (r : Fin 1024) : code i r < 8192 := by
  have h : (i 0).val < 8 := (i 0).isLt
  unfold code; omega

/-- Index word b of chunk j is index word 2048 j + b of the batch. -/
theorem iwAt_apply (x1 : Vec Ideal S1x16384 .i32) (j : Fin 8) (b : Fin 2048) :
    iwAt x1 j (ix2 (0 : Fin 1) b) = rowWords x1 (row j b) := by
  unfold iwAt rowWords
  show x1 _ = x1 _
  refine congrArg x1 (funext fun a => Fin.ext ?_)
  match a with
  | ⟨0, _⟩ => show 0 + 1 * 0 = 0; omega
  | ⟨1, _⟩ => show 2048 * j.val + 1 * b.val = 2048 * j.val + b.val; omega

/-- Row b of chunk j of the [value | residual] array is its row 2048 j + b. -/
theorem cbAt_apply (x0 : Vec Ideal S16384x512 .bf16) (j : Fin 8) (b : Fin 2048) (e : Fin 512) :
    cbAt x0 j (ix2 b e) = x0 (ix2 (row j b) e) := by
  unfold cbAt
  show x0 _ = x0 _
  refine congrArg x0 (funext fun a => Fin.ext ?_)
  match a with
  | ⟨0, _⟩ => show 2048 * j.val + 1 * b.val = 2048 * j.val + b.val; omega
  | ⟨1, _⟩ => show 0 + 1 * e.val = e.val; omega

/-- Row id r at a grid point is the word of its code. -/
theorem ids_apply (i : grid0.Coords) (r : Fin 1024) :
    k0_pay7 i (ix2 r (0 : Fin 1)) = BitVec.ofNat 32 (code i r) := by
  unfold k0_pay7 code
  show BitVec.ofNat 32 (i 0).val * 1024#32 + iota .tc S1024x1 32 [0] iota_S1024x1_d0_w32 (ix2 r (0 : Fin 1)) = _
  rw [iota_single_apply]
  show BitVec.ofNat 32 (i 0).val * BitVec.ofNat 32 1024 + BitVec.ofNat 32 r.val = _
  rw [← BitVec.ofNat_mul, ← BitVec.ofNat_add, Nat.mul_comm]

/-- The mask entry of row id r against an index word is the mask of the code at that row. -/
theorem maskVal_code (i : grid0.Coords) (r : Fin 1024) (w : Fin 16384 → BitVec 32) (n : Fin 16384) :
    maskVal (BitVec.ofNat 32 (code i r)) (w n) = maskAt w (code i r) n := by
  unfold maskVal maskAt
  exact if_congr (word_eq_iff _ (code_lt i r) _) rfl rfl

/-- The two zeroed accumulators. -/
theorem pay5_apply (j : S1024x256.Idx) : k0_pay5 (F := Ideal) j = 0 := by
  unfold k0_pay5
  rw [shapeCast_self]
  exact Ideal.ofBits_zero_f32
theorem pay6_apply (j : S1024x1.Idx) : k0_pay6 (F := Ideal) j = 0 := by
  unfold k0_pay6
  rw [shapeCast_self]
  exact Ideal.ofBits_zero_f32

/-! ## One chunk, then all eight -/

/-- One chunk's contribution to the sums at (r, d): for each half of the array, the sum over the chunk's rows of
    the code's mask times the array entry. -/
theorem addSums_rows (i : grid0.Coords) (x0 : Vec Ideal S16384x512 .bf16) (x1 : Vec Ideal S1x16384 .i32) (j : Fin 8)
    (acc : FVec Ideal S1024x256 .f32) (r : Fin 1024) (d : Fin 256) :
    addSums (F := Ideal) (k0_pay7 i) (iwAt x1 j) (cbAt x0 j) acc (ix2 r d)
      = acc (ix2 r d)
        + (∑ b : Fin 2048, maskAt (rowWords x1) (code i r) (row j b) * x0 (ix2 (row j b) (lo d))
          + ∑ b : Fin 2048, maskAt (rowWords x1) (code i r) (row j b) * x0 (ix2 (row j b) (hi d))) := by
  rw [addSums_apply, ids_apply]
  refine congrArg (acc (ix2 r d) + ·) (congrArg₂ (· + ·) ?_ ?_)
  · refine Finset.sum_congr rfl fun b _ => ?_
    rw [iwAt_apply, cbAt_apply, maskVal_code]
  · refine Finset.sum_congr rfl fun b _ => ?_
    rw [iwAt_apply, cbAt_apply, maskVal_code]

/-- One chunk's contribution to the counts at r: the sum of the code's mask over the chunk's rows. -/
theorem addCounts_rows (i : grid0.Coords) (x1 : Vec Ideal S1x16384 .i32) (j : Fin 8)
    (acc : FVec Ideal S1024x1 .f32) (r : Fin 1024) :
    addCounts (F := Ideal) (k0_pay7 i) (iwAt x1 j) acc (ix2 r (0 : Fin 1))
      = acc (ix2 r (0 : Fin 1)) + ∑ b : Fin 2048, maskAt (rowWords x1) (code i r) (row j b) := by
  rw [addCounts_apply, ids_apply]
  refine congrArg (acc (ix2 r (0 : Fin 1)) + ·) (Finset.sum_congr rfl fun b _ => ?_)
  rw [iwAt_apply, maskVal_code]

/-- The sums after the eighth chunk, at (r, d): for each half of the array, the sum over the whole batch of the
    code's mask times the array entry. -/
theorem sums8_apply (i : grid0.Coords) (x0 : Vec Ideal S16384x512 .bf16) (x1 : Vec Ideal S1x16384 .i32)
    (r : Fin 1024) (d : Fin 256) :
    sums8 (F := Ideal) i x0 x1 (ix2 r d)
      = ∑ n, maskAt (rowWords x1) (code i r) n * x0 (ix2 n (lo d))
        + ∑ n, maskAt (rowWords x1) (code i r) n * x0 (ix2 n (hi d)) := by
  unfold sums8
  rw [addSums_rows, addSums_rows, addSums_rows, addSums_rows, addSums_rows, addSums_rows, addSums_rows, addSums_rows,
    pay5_apply]
  refine (acc8 fun j : Fin 8 =>
    (∑ b : Fin 2048, maskAt (rowWords x1) (code i r) (row j b) * x0 (ix2 (row j b) (lo d))
      + ∑ b : Fin 2048, maskAt (rowWords x1) (code i r) (row j b) * x0 (ix2 (row j b) (hi d)))).trans ?_
  rw [Finset.sum_add_distrib,
    sum_rows fun n => maskAt (rowWords x1) (code i r) n * x0 (ix2 n (lo d)),
    sum_rows fun n => maskAt (rowWords x1) (code i r) n * x0 (ix2 n (hi d))]

/-- The counts after the eighth chunk, at r: the sum of the code's mask over the whole batch. -/
theorem counts8_apply (i : grid0.Coords) (x1 : Vec Ideal S1x16384 .i32) (r : Fin 1024) :
    counts8 (F := Ideal) i x1 (ix2 r (0 : Fin 1)) = ∑ n, maskAt (rowWords x1) (code i r) n := by
  unfold counts8
  rw [addCounts_rows, addCounts_rows, addCounts_rows, addCounts_rows, addCounts_rows, addCounts_rows, addCounts_rows,
    addCounts_rows, pay6_apply]
  refine (acc8 fun j : Fin 8 => ∑ b : Fin 2048, maskAt (rowWords x1) (code i r) (row j b)).trans ?_
  rw [sum_rows fun n => maskAt (rowWords x1) (code i r) n]

/-! ## The three stored blocks -/

/-- The new sums' block at (r, d). -/
theorem pay3_apply (x3 S : FVec Ideal S1024x256 .f32) (j : S1024x256.Idx) :
    k0_pay3 (F := Ideal) x3 S j = c99 * x3 j + c01 * S j := rfl

/-- The new counts' block at an entry. -/
theorem pay2_apply (x2 C : FVec Ideal S1024x1 .f32) (j : S1024x1.Idx) :
    k0_pay2 (F := Ideal) x2 C j = c99 * x2 j + c01 * C j := rfl

/-- The new codes' block at (r, d): the new sum there over the new count of row r. -/
theorem pay4_apply (x2 C : FVec Ideal S1024x1 .f32) (x3 S : FVec Ideal S1024x256 .f32) (r : Fin 1024) (d : Fin 256) :
    k0_pay4 (F := Ideal) x2 C x3 S (ix2 r d)
      = Ideal.div (c99 * x3 (ix2 r d) + c01 * S (ix2 r d)) (c99 * x2 (ix2 r (0 : Fin 1)) + c01 * C (ix2 r (0 : Fin 1))) := by
  unfold k0_pay4
  rw [divf_apply, broadcastTo_apply (k0_pay2 (F := Ideal) x2 C) broadcasts_S1024x1_S1024x256 (ix2 r d) (ix2 r (0 : Fin 1)) (fun a => by
      match a with
      | ⟨0, _⟩ => rfl
      | ⟨1, _⟩ => rfl), pay3_apply, pay2_apply]

end Cert.KernelIdeal.Block

end
-- ==== Proof.KernelValue.lean ====
/-
  THE KERNEL'S THREE RESULT ARRAYS are the codebook update of Ema.newCodes, Ema.newCounts and Ema.newSums of
  the argument arrays, provided every entry of the batch array is a real number.

  Before the grid the host builds the index row (the index argument as one row) and the 16384 x 512 array
  [value | residual]: columns 0..255 hold the batch array itself and columns 256..511 hold the batch array minus
  itself (a change of float format is the identity on the extended reals), which is zero at real entries. Every
  grid point sees both arrays whole, and block t (rows 1024 t .. 1024 t + 1023) of the old counts and sums; what
  it writes back is block t of the update (the three block lemmas), the eight blocks tile each result array, so
  each result array is the update.
-/
import proofs.«413381_j8409545966131_3_alg».proof.Proof.KernelBlock
import proofs.«413381_j8409545966131_3_alg».proof.Proof.Gen.KernelIdeal.Value
import Idealize.ShloMosaic.Lib.StableHlo.Run

set_option maxRecDepth 16384

noncomputable section

open scoped BigOperators

namespace Cert.KernelIdeal.KValue

open Cert.KernelIdeal Cert.KernelIdeal.Gen Cert.KernelIdeal.Chunk Cert.KernelIdeal.Block
open Idealize.ShloMosaic Idealize.ShloMosaic.TcCoe Idealize.ShloMosaic.ValueIdx Idealize.SL.Sem
open Idealize.ShloMosaic.Pipeline (Dat)
open Cert.Ema

variable (m : (ℓ : Loc nD τ sig) → Buf (Elt Ideal) ℓ) (ρ : Dev nD → PrngReg)

/-! ## The argument arrays and what the host builds from them -/

/-- The batch array, the index argument, the old counts and the old sums. -/
abbrev xArr (c : Dev nD) : FVec Ideal S16384x256 .f32 := m ((c : Thread nD τ).loc main_arg0)
abbrev iArr (c : Dev nD) : IVec S16384 32 := m ((c : Thread nD τ).loc main_arg2)
abbrev nArr (c : Dev nD) : FVec Ideal S8192x1 .f32 := m ((c : Thread nD τ).loc main_arg4)
abbrev mArr (c : Dev nD) : FVec Ideal S8192x256 .f32 := m ((c : Thread nD τ).loc main_arg5)

/-- The index row: the index argument as one row. -/
theorem V_v0 (c : Dev nD) :
    (V m c main_v0 : S1x16384.Idx → BitVec 32) = shapeCast S1x16384 (iArr m c) shapeCasts_S16384_S1x16384 := by
  dsimp only [Gen.V, Gen.hostOps0]
  after_results
  rfl

/-- The [value | residual] array: the batch array beside the batch array minus itself. -/
theorem V_v5 (c : Dev nD) :
    (V m c main_v5 : S16384x512.Idx → EReal)
      = concatenate S16384x512 1
          [⟨S16384x256, truncf .bf16 (xArr m c) bitsLt_bf16_f32⟩,
           ⟨S16384x256, truncf .bf16 (subf (xArr m c) (extf .f32 (truncf .bf16 (xArr m c) bitsLt_bf16_f32) bitsLt_bf16_f32))
              bitsLt_bf16_f32⟩]
          concatenates_S16384x256_S16384x256_S16384x512_d1 := by
  dsimp only [Gen.V, Gen.hostOps0]
  after_results

/-- Index word n of the index row is index word n of the argument. -/
theorem V_v0_apply (c : Dev nD) (n : Fin 16384) :
    (V m c main_v0 : S1x16384.Idx → BitVec 32) (ix2 (0 : Fin 1) n) = iArr m c (ix1 n) := by
  rw [V_v0]
  exact shapeCast_a_1a_apply (iArr m c) shapeCasts_S16384_S1x16384 0 n

/-- The value half at (n, d) is the batch array there. -/
theorem V_v5_lo (c : Dev nD) (n : Fin 16384) (d : Fin 256) :
    (V m c main_v5 : S16384x512.Idx → EReal) (ix2 n (lo d)) = xArr m c (ix2 n d) := by
  rw [V_v5]
  refine (concatenate_pair_apply_left (t := S16384x512) (s₁ := S16384x256) (s₂ := S16384x256) (1 : Fin 2)
    (truncf .bf16 (xArr m c) bitsLt_bf16_f32)
    (truncf .bf16 (subf (xArr m c) (extf .f32 (truncf .bf16 (xArr m c) bitsLt_bf16_f32) bitsLt_bf16_f32)) bitsLt_bf16_f32)
    concatenates_S16384x256_S16384x256_S16384x512_d1 (ix2 n (lo d)) rfl
    (ix2 n d) (fun b => by
      match b with
      | ⟨0, _⟩ => rfl
      | ⟨1, _⟩ => rfl)).trans ?_
  rfl

/-- The residual half at (n, d) is the batch array there minus itself. -/
theorem V_v5_hi (c : Dev nD) (n : Fin 16384) (d : Fin 256) :
    (V m c main_v5 : S16384x512.Idx → EReal) (ix2 n (hi d)) = xArr m c (ix2 n d) - xArr m c (ix2 n d) := by
  rw [V_v5]
  refine (concatenate_pair_apply_right (t := S16384x512) (s₁ := S16384x256) (s₂ := S16384x256) (1 : Fin 2)
    (truncf .bf16 (xArr m c) bitsLt_bf16_f32)
    (truncf .bf16 (subf (xArr m c) (extf .f32 (truncf .bf16 (xArr m c) bitsLt_bf16_f32) bitsLt_bf16_f32)) bitsLt_bf16_f32)
    concatenates_S16384x256_S16384x256_S16384x512_d1 (ix2 n (hi d)) rfl rfl
    (ix2 n d) (fun b hb => by
      match b with
      | ⟨0, _⟩ => rfl
      | ⟨1, _⟩ => exact absurd rfl hb) (by show d.val + 256 = 256 + d.val; omega)).trans ?_
  rfl

/-! ## The blocks a grid point sees -/

/-- The printed index maps over the grid: the two whole arrays sit at block (0, 0); the counts, the sums and the
    three results move with the grid coordinate along the rows. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ win0_3.index t (0 : Fin 2) = (grid0.coords t 0).val ∧ win0_3.index t (1 : Fin 2) = 0
    ∧ win0_4.index t (0 : Fin 2) = (grid0.coords t 0).val ∧ win0_4.index t (1 : Fin 2) = 0
    ∧ win0_5.index t (0 : Fin 2) = (grid0.coords t 0).val ∧ win0_5.index t (1 : Fin 2) = 0
    ∧ win0_6.index t (0 : Fin 2) = (grid0.coords t 0).val ∧ win0_6.index t (1 : Fin 2) = 0 :=
  (by decide +kernel : ∀ t : Fin grid0.N, _)

/-- Every row block is some point's. -/
theorem idx_onto : ∀ q : Fin 8, ∃ t : Fin cfg0.N, (grid0.coords t 0).val = q.val :=
  (by decide +kernel : ∀ q : Fin 8, ∃ t : Fin grid0.N, (grid0.coords t 0).val = q.val)

/-- The four input blocks of point t at their literal shapes. -/
abbrev xC (c : Dev nD) (t : Fin cfg0.N) : Vec Ideal S16384x512 .bf16 := iblk m c 0 t
abbrev xI (c : Dev nD) (t : Fin cfg0.N) : Vec Ideal S1x16384 .i32 := iblk m c 1 t
abbrev xN (c : Dev nD) (t : Fin cfg0.N) : Vec Ideal S1024x1 .f32 := iblk m c 2 t
abbrev xM (c : Dev nD) (t : Fin cfg0.N) : Vec Ideal S1024x256 .f32 := iblk m c 3 t

/-- The code row that row r of point t's blocks is. -/
def rowOf (t : Fin cfg0.N) (r : Fin 1024) : Fin 8192 := ⟨code (grid0.coords t) r, code_lt _ r⟩

theorem xC_apply (c : Dev nD) (t : Fin cfg0.N) (n : Fin 16384) (e : Fin 512) :
    xC m c t (ix2 n e) = (V m c main_v5 : S16384x512.Idx → EReal) (ix2 n e) := by
  obtain ⟨e0, e1, -⟩ := idx_facts t
  show (V m c main_v5 : S16384x512.Idx → EReal) (((cfg0.win 0).blk t).view.emb (ix2 n e)) = _
  refine congrArg _ (funext fun a => Fin.ext ?_)
  match a with
  | ⟨0, _⟩ => show win0_0.index t (0 : Fin 2) * 16384 + 1 * n.val = n.val; rw [e0]; omega
  | ⟨1, _⟩ => show win0_0.index t (1 : Fin 2) * 512 + 1 * e.val = e.val; rw [e1]; omega

theorem xI_apply (c : Dev nD) (t : Fin cfg0.N) (n : Fin 16384) :
    xI m c t (ix2 (0 : Fin 1) n) = (V m c main_v0 : S1x16384.Idx → BitVec 32) (ix2 (0 : Fin 1) n) := by
  obtain ⟨-, -, e0, e1, -⟩ := idx_facts t
  show (V m c main_v0 : S1x16384.Idx → BitVec 32) (((cfg0.win 1).blk t).view.emb (ix2 (0 : Fin 1) n)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 16384 + 1 * n.val = n.val; rw [e1]; omega

theorem xN_apply (c : Dev nD) (t : Fin cfg0.N) (r : Fin 1024) :
    xN m c t (ix2 r (0 : Fin 1)) = nArr m c (ix2 (rowOf t r) (0 : Fin 1)) := by
  obtain ⟨-, -, -, -, e0, e1, -⟩ := idx_facts t
  show (V m c main_arg4 : S8192x1.Idx → EReal) (((cfg0.win 2).blk t).view.emb (ix2 r (0 : Fin 1))) = _
  rw [V_main_arg4]
  refine congrArg _ (funext fun a => Fin.ext ?_)
  match a with
  | ⟨0, _⟩ => show win0_2.index t (0 : Fin 2) * 1024 + 1 * r.val = 1024 * (grid0.coords t 0).val + r.val; rw [e0]; omega
  | ⟨1, _⟩ => show win0_2.index t (1 : Fin 2) * 1 + 1 * 0 = 0; rw [e1]

theorem xM_apply (c : Dev nD) (t : Fin cfg0.N) (r : Fin 1024) (d : Fin 256) :
    xM m c t (ix2 r d) = mArr m c (ix2 (rowOf t r) d) := by
  obtain ⟨-, -, -, -, -, -, e0, e1, -⟩ := idx_facts t
  show (V m c main_arg5 : S8192x256.Idx → EReal) (((cfg0.win 3).blk t).view.emb (ix2 r d)) = _
  rw [V_main_arg5]
  refine congrArg _ (funext fun a => Fin.ext ?_)
  match a with
  | ⟨0, _⟩ => show win0_3.index t (0 : Fin 2) * 1024 + 1 * r.val = 1024 * (grid0.coords t 0).val + r.val; rw [e0]; omega
  | ⟨1, _⟩ => show win0_3.index t (1 : Fin 2) * 256 + 1 * d.val = d.val; rw [e1]; omega

/-- The index words point t sees are the argument's. -/
theorem rowWords_xI (c : Dev nD) (t : Fin cfg0.N) : rowWords (xI m c t) = words (iArr m c) :=
  funext fun n => by
    unfold rowWords words
    rw [xI_apply, V_v0_apply]

/-! ## What a grid point computes, entry by entry -/

variable (hfin : ∀ (c : Dev nD) (i : S16384x256.Idx), ∃ v : ℝ, xArr m c i = (v : EReal))
include hfin

/-- The sums gathered over the batch at point t, row r, column d: the sum of column d over the rows assigned to
    the row's code; the residual half adds nothing. -/
theorem sums8_at (c : Dev nD) (t : Fin cfg0.N) (r : Fin 1024) (d : Fin 256) :
    sums8 (F := Ideal) (grid0.coords t) (xC m c t) (xI m c t) (ix2 r d)
      = ∑ n ∈ assigned (words (iArr m c)) (rowOf t r).val, xArr m c (ix2 n d) := by
  rw [sums8_apply, rowWords_xI]
  have e1 : ∀ n, xC m c t (ix2 n (lo d)) = xArr m c (ix2 n d) := fun n => by rw [xC_apply, V_v5_lo]
  have e2 : ∀ n, xC m c t (ix2 n (hi d)) = xArr m c (ix2 n d) - xArr m c (ix2 n d) := fun n => by rw [xC_apply, V_v5_hi]
  have s1 : ∑ n, maskAt (words (iArr m c)) (code (grid0.coords t) r) n * xC m c t (ix2 n (lo d))
      = ∑ n, maskAt (words (iArr m c)) (code (grid0.coords t) r) n * xArr m c (ix2 n d) :=
    Finset.sum_congr rfl fun n _ => by rw [e1 n]
  have s2 : ∑ n, maskAt (words (iArr m c)) (code (grid0.coords t) r) n * xC m c t (ix2 n (hi d))
      = ∑ n, maskAt (words (iArr m c)) (code (grid0.coords t) r) n * (xArr m c (ix2 n d) - xArr m c (ix2 n d)) :=
    Finset.sum_congr rfl fun n _ => by rw [e2 n]
  rw [s1, s2, sum_mask_mul, sum_mask_mul_sub_self _ _ (fun n => xArr m c (ix2 n d)) (fun n => hfin c _), add_zero]
  rfl

omit hfin in
/-- The counts gathered over the batch at point t, row r: the number of rows assigned to the row's code. -/
theorem counts8_at (c : Dev nD) (t : Fin cfg0.N) (r : Fin 1024) :
    counts8 (F := Ideal) (grid0.coords t) (xI m c t) (ix2 r (0 : Fin 1))
      = ∑ _n ∈ assigned (words (iArr m c)) (rowOf t r).val, (1 : EReal) := by
  rw [counts8_apply, rowWords_xI, sum_mask_one]
  rfl

/-- The three stored blocks of point t at an entry: the update at the row's code. -/
theorem newSums_at (c : Dev nD) (t : Fin cfg0.N) (r : Fin 1024) (d : Fin 256) :
    k0_pay3 (F := Ideal) (xM m c t) (sums8 (grid0.coords t) (xC m c t) (xI m c t)) (ix2 r d)
      = newSums (mArr m c) (xArr m c) (iArr m c) (ix2 (rowOf t r) d) := by
  rw [pay3_apply, sums8_at m hfin, xM_apply]
  rfl

omit hfin in
theorem newCounts_at (c : Dev nD) (t : Fin cfg0.N) (r : Fin 1024) :
    k0_pay2 (F := Ideal) (xN m c t) (counts8 (grid0.coords t) (xI m c t)) (ix2 r (0 : Fin 1))
      = newCounts (nArr m c) (iArr m c) (ix2 (rowOf t r) (0 : Fin 1)) := by
  rw [pay2_apply, counts8_at, xN_apply]
  rfl

theorem newCodes_at (c : Dev nD) (t : Fin cfg0.N) (r : Fin 1024) (d : Fin 256) :
    k0_pay4 (F := Ideal) (xN m c t) (counts8 (grid0.coords t) (xI m c t)) (xM m c t)
        (sums8 (grid0.coords t) (xC m c t) (xI m c t)) (ix2 r d)
      = newCodes (nArr m c) (mArr m c) (xArr m c) (iArr m c) (ix2 (rowOf t r) d) := by
  rw [pay4_apply, sums8_at m hfin, counts8_at, xM_apply, xN_apply]
  rfl

end Cert.KernelIdeal.KValue

end
-- ==== Proof.KernelRun.lean ====
/-
  THE RUN OF THE KERNEL with its three result arrays named: the new codes, the new counts and the new sums of the
  argument arrays (Ema.newCodes, Ema.newCounts, Ema.newSums), provided every entry of the batch array is a real
  number.

  For each result: what grid point t writes back is block t of the update (rows 1024 t .. 1024 t + 1023), an index
  lies in point t's block when its row does, every row lies in the block of the point its thousand-and-twenty-four
  names, so the eight blocks tile the array and the array ends as the update.
-/
import proofs.«413381_j8409545966131_3_alg».proof.Proof.KernelValue

set_option maxRecDepth 16384

noncomputable section

open scoped BigOperators

namespace Cert.KernelIdeal.KValue

open Cert.KernelIdeal Cert.KernelIdeal.Gen Cert.KernelIdeal.Chunk Cert.KernelIdeal.Block
open Idealize.ShloMosaic Idealize.ShloMosaic.TcCoe Idealize.ShloMosaic.ValueIdx Idealize.SL.Sem
open Idealize.ShloMosaic.Pipeline (Dat)
open Cert.Ema

variable (m : (ℓ : Loc nD τ sig) → Buf (Elt Ideal) ℓ) (ρ : Dev nD → PrngReg)
variable (hfin : ∀ (c : Dev nD) (i : S16384x256.Idx), ∃ v : ℝ, xArr m c i = (v : EReal))
include hfin

/-- What point t writes back to result 0 is block t of the update. -/
theorem flushed4_eq (c : Dev nD) (t : Fin cfg0.N) :
    (dats m 0 c).flushed 4 t = ((cfg0.win 4).blk t).view.read (Elt Ideal) (newCodes (nArr m c) (mArr m c) (xArr m c) (iArr m c)) := by
  rw [Value.flushed4_A, out4_eq]
  have hI := idx_facts t
  funext j
  obtain ⟨r, d, rfl⟩ : ∃ (r : Fin 1024) (d : Fin 256), j = ix2 r d := ⟨j 0, j 1, eq_ix2 j⟩
  show k0_pay4 (F := Ideal) (xN m c t) (counts8 (grid0.coords t) (xI m c t)) (xM m c t) (sums8 (grid0.coords t) (xC m c t) (xI m c t)) (ix2 r d)
    = (newCodes (nArr m c) (mArr m c) (xArr m c) (iArr m c)) (((cfg0.win 4).blk t).view.emb (ix2 r d))
  rw [newCodes_at m hfin]
  refine congrArg _ (funext fun a => Fin.ext ?_)
  match a with
  | ⟨0, _⟩ =>
    show 1024 * (grid0.coords t 0).val + r.val = win0_4.index t (0 : Fin 2) * 1024 + 1 * r.val
    have := hI.2.2.2.2.2.2.2.2.1
    omega
  | ⟨1, _⟩ =>
    show d.val = win0_4.index t (1 : Fin 2) * 256 + 1 * d.val
    have := hI.2.2.2.2.2.2.2.2.2.1
    omega

omit hfin in
/-- An index of result 0 is in point t's block when each coordinate is in the block's range. -/
theorem mem_blk4 (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v6_0).slice (win0_4.rect t)).set ↔ _
  rw [View.set_slice_whole, Rect.mem_set_unit]
  exact Iff.rfl

omit hfin in
/-- The eight blocks tile result 0: row k lies in the block of point k / 1024. -/
theorem cover4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  obtain ⟨t, ht⟩ := idx_onto ⟨(i 0).val / 1024, by omega⟩
  have ht' : (grid0.coords t 0).val = (i 0).val / 1024 := ht
  have hI := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    have := hI.2.2.2.2.2.2.2.2.1
    omega
  | ⟨1, _⟩ =>
    show win0_4.index t (1 : Fin 2) * 256 ≤ (i 1).val ∧ (i 1).val < win0_4.index t (1 : Fin 2) * 256 + 256
    have := hI.2.2.2.2.2.2.2.2.2.1
    omega

/-- Result 0 after the run is the update. -/
theorem final4 (c : Dev nD) : (dats m 0 c).arrAt 4 cfg0.N = newCodes (nArr m c) (mArr m c) (xArr m c) (iArr m c) :=
  (dats m 0 c).arrAt_eq_of_cover 4 _ (fun t _ => flushed4_eq m hfin c t) cover4

/-- What point t writes back to result 1 is block t of the update. -/
theorem flushed5_eq (c : Dev nD) (t : Fin cfg0.N) :
    (dats m 0 c).flushed 5 t = ((cfg0.win 5).blk t).view.read (Elt Ideal) (newCounts (nArr m c) (iArr m c)) := by
  rw [Value.flushed5_A, out5_eq]
  have hI := idx_facts t
  funext j
  obtain ⟨r, z, rfl⟩ : ∃ (r : Fin 1024) (z : Fin 1), j = ix2 r z := ⟨j 0, j 1, eq_ix2 j⟩
  obtain rfl : z = 0 := Subsingleton.elim _ _
  show k0_pay2 (F := Ideal) (xN m c t) (counts8 (grid0.coords t) (xI m c t)) (ix2 r (0 : Fin 1))
    = (newCounts (nArr m c) (iArr m c)) (((cfg0.win 5).blk t).view.emb (ix2 r (0 : Fin 1)))
  rw [newCounts_at m]
  refine congrArg _ (funext fun a => Fin.ext ?_)
  match a with
  | ⟨0, _⟩ =>
    show 1024 * (grid0.coords t 0).val + r.val = win0_5.index t (0 : Fin 2) * 1024 + 1 * r.val
    have := hI.2.2.2.2.2.2.2.2.2.2.1
    omega
  | ⟨1, _⟩ =>
    show 0 = win0_5.index t (1 : Fin 2) * 1 + 1 * 0
    have := hI.2.2.2.2.2.2.2.2.2.2.2.1
    omega

omit hfin in
/-- An index of result 1 is in point t's block when each coordinate is in the block's range. -/
theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v6_1).slice (win0_5.rect t)).set ↔ _
  rw [View.set_slice_whole, Rect.mem_set_unit]
  exact Iff.rfl

omit hfin in
/-- The eight blocks tile result 1: row k lies in the block of point k / 1024. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ := idx_onto ⟨(i 0).val / 1024, by omega⟩
  have ht' : (grid0.coords t 0).val = (i 0).val / 1024 := ht
  have hI := idx_facts t
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    have := hI.2.2.2.2.2.2.2.2.2.2.1
    omega
  | ⟨1, _⟩ =>
    show win0_5.index t (1 : Fin 2) * 1 ≤ (i 1).val ∧ (i 1).val < win0_5.index t (1 : Fin 2) * 1 + 1
    have := hI.2.2.2.2.2.2.2.2.2.2.2.1
    omega

/-- Result 1 after the run is the update. -/
theorem final5 (c : Dev nD) : (dats m 0 c).arrAt 5 cfg0.N = newCounts (nArr m c) (iArr m c) :=
  (dats m 0 c).arrAt_eq_of_cover 5 _ (fun t _ => flushed5_eq m hfin c t) cover5

/-- What point t writes back to result 2 is block t of the update. -/
theorem flushed6_eq (c : Dev nD) (t : Fin cfg0.N) :
    (dats m 0 c).flushed 6 t = ((cfg0.win 6).blk t).view.read (Elt Ideal) (newSums (mArr m c) (xArr m c) (iArr m c)) := by
  rw [Value.flushed6_A, out6_eq]
  have hI := idx_facts t
  funext j
  obtain ⟨r, d, rfl⟩ : ∃ (r : Fin 1024) (d : Fin 256), j = ix2 r d := ⟨j 0, j 1, eq_ix2 j⟩
  show k0_pay3 (F := Ideal) (xM m c t) (sums8 (grid0.coords t) (xC m c t) (xI m c t)) (ix2 r d)
    = (newSums (mArr m c) (xArr m c) (iArr m c)) (((cfg0.win 6).blk t).view.emb (ix2 r d))
  rw [newSums_at m hfin]
  refine congrArg _ (funext fun a => Fin.ext ?_)
  match a with
  | ⟨0, _⟩ =>
    show 1024 * (grid0.coords t 0).val + r.val = win0_6.index t (0 : Fin 2) * 1024 + 1 * r.val
    have := hI.2.2.2.2.2.2.2.2.2.2.2.2.1
    omega
  | ⟨1, _⟩ =>
    show d.val = win0_6.index t (1 : Fin 2) * 256 + 1 * d.val
    have := hI.2.2.2.2.2.2.2.2.2.2.2.2.2
    omega

omit hfin in
/-- An index of result 2 is in point t's block when each coordinate is in the block's range. -/
theorem mem_blk6 (t : Fin cfg0.N) (i : S8192x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v6_2).slice (win0_6.rect t)).set ↔ _
  rw [View.set_slice_whole, Rect.mem_set_unit]
  exact Iff.rfl

omit hfin in
/-- The eight blocks tile result 2: row k lies in the block of point k / 1024. -/
theorem cover6 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  obtain ⟨t, ht⟩ := idx_onto ⟨(i 0).val / 1024, by omega⟩
  have ht' : (grid0.coords t 0).val = (i 0).val / 1024 := ht
  have hI := idx_facts t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    have := hI.2.2.2.2.2.2.2.2.2.2.2.2.1
    omega
  | ⟨1, _⟩ =>
    show win0_6.index t (1 : Fin 2) * 256 ≤ (i 1).val ∧ (i 1).val < win0_6.index t (1 : Fin 2) * 256 + 256
    have := hI.2.2.2.2.2.2.2.2.2.2.2.2.2
    omega

/-- Result 2 after the run is the update. -/
theorem final6 (c : Dev nD) : (dats m 0 c).arrAt 6 cfg0.N = newSums (mArr m c) (xArr m c) (iArr m c) :=
  (dats m 0 c).arrAt_eq_of_cover 6 _ (fun t _ => flushed6_eq m hfin c t) cover6

/-- The run: every weakly fair execution ends with the three results at the update and the arguments unchanged. -/
theorem run : θ_run defs (onTc (τ := τ) (main (F := Ideal))) ⟨m, fun _ => 0, ρ⟩ fun r => ∀ c : Dev nD,
      r.2.mem ((c : Thread nD τ).loc main_v6_0) = newCodes (nArr m c) (mArr m c) (xArr m c) (iArr m c)
      ∧ r.2.mem ((c : Thread nD τ).loc main_v6_1) = newCounts (nArr m c) (iArr m c)
      ∧ r.2.mem ((c : Thread nD τ).loc main_v6_2) = newSums (mArr m c) (xArr m c) (iArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final4 m hfin c), (h c).2.1.trans (final5 m hfin c),
      (h c).2.2.1.trans (final6 m hfin c), (h c).2.2.2⟩)
    (Value.run_blocks m ρ)

end Cert.KernelIdeal.KValue

end
-- ==== Proof.lean ====
/-
  The codebook update by moving averages, kernel against reference, over the extended reals.

  Both programs compute, for every code k, the number of batch rows assigned to k and the sum of those rows, and
  from them 0.99' N + 0.01' count, 0.99' M + 0.01' sum and the quotient of the second by the first (0.99' and 0.01'
  the two float constants both carry). The reference gathers with two accumulating scatters. The kernel compares
  each code's word with every row's index word, multiplies the 0/1 mask into the batch array split as
  [value | value - value] on the matrix unit in eight chunks of 2048 rows, and adds the mask's row sums; a code
  below 8192 matches exactly the index words whose signed reading is the code, a change of float format is the
  identity, the residual half is zero at real entries (the precondition: every float input is finite), and sums
  may be regrouped. So the three results agree entry by entry (Ema.newCodes, Ema.newCounts, Ema.newSums).

  The three frames: the two kernels' are their generated frame runs; the reference's is its run with the results
  dropped. The idealization replaced eight round trips of the mask through the narrower float format by the mask
  itself: the rule's statement, eight times.
-/
import proofs.«413381_j8409545966131_3_alg».proof.Defs
import proofs.«413381_j8409545966131_3_alg».proof.Proof.Gen.Kernel
import proofs.«413381_j8409545966131_3_alg».proof.Proof.Gen.Kernel.Skeleton
import proofs.«413381_j8409545966131_3_alg».proof.Proof.Gen.Kernel.Launch
import proofs.«413381_j8409545966131_3_alg».proof.Proof.Gen.Kernel.Points
import proofs.«413381_j8409545966131_3_alg».proof.Proof.Gen.Kernel.Frame
import proofs.«413381_j8409545966131_3_alg».proof.Proof.Gen.KernelIdeal
import proofs.«413381_j8409545966131_3_alg».proof.Proof.Gen.KernelIdeal.Skeleton
import proofs.«413381_j8409545966131_3_alg».proof.Proof.Gen.KernelIdeal.Launch
import proofs.«413381_j8409545966131_3_alg».proof.Proof.Gen.KernelIdeal.Points
import proofs.«413381_j8409545966131_3_alg».proof.Proof.Gen.KernelIdeal.Frame
import proofs.«413381_j8409545966131_3_alg».proof.Proof.Gen.ReferenceIdeal
import proofs.«413381_j8409545966131_3_alg».proof.Proof.Gen.KernelIdeal.Value
import proofs.«413381_j8409545966131_3_alg».proof.Proof.Gen.ReferenceIdeal.Run
import proofs.«413381_j8409545966131_3_alg».proof.Proof.Gen.ReferenceIdeal.Read
import proofs.«413381_j8409545966131_3_alg».proof.Proof.Gen.Pre_finite_inputs
import proofs.«413381_j8409545966131_3_alg».proof.Proof.FiniteInputs
import proofs.«413381_j8409545966131_3_alg».proof.Proof.RefValue
import proofs.«413381_j8409545966131_3_alg».proof.Proof.KernelRun
import Idealize.ShloMosaic.Adequacy
import Idealize.ShloMosaic.Init

noncomputable section

namespace Cert.Proof

open Idealize.ShloMosaic Idealize.ShloMosaic.TcCoe Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Each of the eight entries: narrowing the mask and widening it back is the identity on the extended reals. -/
theorem preserves : Cert.preserves_Kernel_KernelIdeal :=
  ⟨IdealRules.truncf_extf.statement Cert.KernelIdeal.S1024x2048 .f32 .bf16, IdealRules.truncf_extf.statement Cert.KernelIdeal.S1024x2048 .f32 .bf16, IdealRules.truncf_extf.statement Cert.KernelIdeal.S1024x2048 .f32 .bf16, IdealRules.truncf_extf.statement Cert.KernelIdeal.S1024x2048 .f32 .bf16,
    IdealRules.truncf_extf.statement Cert.KernelIdeal.S1024x2048 .f32 .bf16, IdealRules.truncf_extf.statement Cert.KernelIdeal.S1024x2048 .f32 .bf16, IdealRules.truncf_extf.statement Cert.KernelIdeal.S1024x2048 .f32 .bf16, IdealRules.truncf_extf.statement Cert.KernelIdeal.S1024x2048 .f32 .bf16⟩

/-- Both programs end with the new codes, the new counts and the new sums of the argument arrays. -/
theorem algebraic : Cert.algebraic_KernelIdeal_ReferenceIdeal := by
  intro m ρ m' ρ' hpre hagree
  have hfin : ∀ (c : Dev Cert.KernelIdeal.nD) (i : Cert.KernelIdeal.S16384x256.Idx),
      ∃ v : ℝ, Cert.KernelIdeal.KValue.xArr m c i = (v : EReal) :=
    fun c i => Cert.Pre_finite_inputs.Finite.arg0_real _ _ _ _ _ _ (hpre c) i
  refine ⟨_, _, _, Cert.KernelIdeal.KValue.run m ρ hfin, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v18_eq, Cert.ReferenceIdeal.RefValue.v18_eq,
      (hagree c).1, (hagree c).2.2.1, (hagree c).2.2.2.2.1, (hagree c).2.2.2.2.2]
  · rw [(h c).2.1, Cert.ReferenceIdeal.Read.val_main_v11_eq, Cert.ReferenceIdeal.RefValue.v11_eq,
      (hagree c).2.2.1, (hagree c).2.2.2.2.1]
  · rw [(h c).2.2.1, Cert.ReferenceIdeal.Read.val_main_v16_eq, Cert.ReferenceIdeal.RefValue.v16_eq,
      (hagree c).1, (hagree c).2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
